-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_v8) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x64x1024 : Shape := ⟨3, ![512, 64, 1024]⟩
abbrev S64x1024 : Shape := ⟨2, ![64, 1024]⟩
abbrev S1024x1024 : Shape := ⟨2, ![1024, 1024]⟩
abbrev S_ : Shape := ⟨0, ![]⟩

class Facts : Prop where
  bcast_S_S512x64x1024 : S_.BroadcastsInDim S512x64x1024 (![] : Fin 0 → Fin S512x64x1024.rank)
  reducesTo_S512x64x1024_S_d0_1_2 : S512x64x1024.ReducesTo [0, 1, 2] S_
  h_S_ : 0 < S_.numel
  bcast_S_S64x1024 : S_.BroadcastsInDim S64x1024 (![] : Fin 0 → Fin S64x1024.rank)
  reducesTo_S64x1024_S_d0_1 : S64x1024.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  main_v18

def fn {F : FTy → Type} [FloatOps F] (main_arg0 : FVec F S512x64x1024 .f32) (main_arg1 : FVec F S64x1024 .f32) (main_arg2 : FVec F S1024x1024 .f32) (main_arg3 : FVec F S1024x1024 .f32) : IVec S_ 1 :=
  let main_v0 : FVec F S512x64x1024 .f32 := Host.absf main_arg0
  let main_cst : FVec F S_ .f32 := constant S_ .f32 0x7F800000#32
  let main_v1 : FVec F S512x64x1024 .f32 := broadcastInDim S512x64x1024 ![] bcast_S_S512x64x1024 main_cst
  let main_v2 : IVec S512x64x1024 1 := cmpf .olt main_v0 main_v1
  let main_c : IVec S_ 1 := constantI S_ 1 1#1
  let main_v3 : IVec S_ 1 := (fun x v => Host.reduce IntOp.andi x v reducesTo_S512x64x1024_S_d0_1_2 h_S_) main_v2 main_c
  let main_v4 : FVec F S64x1024 .f32 := Host.absf main_arg1
  let main_cst_0 : FVec F S_ .f32 := constant S_ .f32 0x7F800000#32
  let main_v5 : FVec F S64x1024 .f32 := broadcastInDim S64x1024 ![] bcast_S_S64x1024 main_cst_0
  let main_v6 : IVec S64x1024 1 := cmpf .olt main_v4 main_v5
  let main_c_1 : IVec S_ 1 := constantI S_ 1 1#1
  let main_v7 : IVec S_ 1 := (fun x v => Host.reduce IntOp.andi x v reducesTo_S64x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_v13 main_v16
-- ==== Kernel.lean ====
abbrev S512x64x1024 : Shape := ⟨3, ![512, 64, 1024]⟩
abbrev S64x1024 : Shape := ⟨2, ![64, 1024]⟩
abbrev S1024x1024 : Shape := ⟨2, ![1024, 1024]⟩
abbrev S32x64x1024 : Shape := ⟨3, ![32, 64, 1024]⟩
abbrev S2048x1024 : Shape := ⟨2, ![2048, 1024]⟩
abbrev S1x64x1024 : Shape := ⟨3, ![1, 64, 1024]⟩

abbrev nBuf : Space → Nat
  | .hbm => 9
  | .vmem => 9
  | .smem => 0
  | _ => 0

abbrev bufTy : (tb : Table) → Fin (tcTables nBuf tb) → BufTy
  | .hbm, ⟨0, _⟩ => ⟨S512x64x1024, .f32⟩
  | .hbm, ⟨1, _⟩ => ⟨S64x1024, .f32⟩
  | .hbm, ⟨2, _⟩ => ⟨S1024x1024, .f32⟩
  | .hbm, ⟨3, _⟩ => ⟨S1024x1024, .f32⟩
  | .hbm, ⟨4, _⟩ => ⟨S1024x1024, .bf16⟩
  | .hbm, ⟨5, _⟩ => ⟨S64x1024, .f32⟩
  | .hbm, ⟨6, _⟩ => ⟨S512x64x1024, .f32⟩
  | .hbm, ⟨7, _⟩ => ⟨S1x64x1024, .f32⟩
  | .hbm, ⟨8, _⟩ => ⟨S64x1024, .f32⟩
  | .local _ .vmem, ⟨0, _⟩ => ⟨S64x1024, .f32⟩
  | .local _ .vmem, ⟨1, _⟩ => ⟨S1024x1024, .f32⟩
  | .local _ .vmem, ⟨2, _⟩ => ⟨S64x1024, .f32⟩
  | .local _ .vmem, ⟨3, _⟩ => ⟨S32x64x1024, .f32⟩
  | .local _ .vmem, ⟨4, _⟩ => ⟨S32x64x1024, .f32⟩
  | .local _ .vmem, ⟨5, _⟩ => ⟨S1024x1024, .bf16⟩
  | .local _ .vmem, ⟨6, _⟩ => ⟨S64x1024, .f32⟩
  | .local _ .vmem, ⟨7, _⟩ => ⟨S32x64x1024, .f32⟩
  | .local _ .vmem, ⟨8, _⟩ => ⟨S32x64x1024, .f32⟩
  | _, _ => ⟨S512x64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg3_1 : Ref sig .tc := ⟨.vmem, 8, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem3_1 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S64x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S32x64x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S32x64x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bitsLt_bf16_f32 : FTy.bits .bf16 < FTy.bits .f32
  inb_S64x1024_S64x1024_0_0 : ∀ a, (![0, 0] : Fin 2 → Nat) a + S64x1024.size a ≤ S64x1024.size a
  h_S64x1024 : 0 < S64x1024.numel
  inb_S1024x1024_S1024x1024_0_0 : ∀ a, (![0, 0] : Fin 2 → Nat) a + S1024x1024.size a ≤ S1024x1024.size a
  h_S1024x1024 : 0 < S1024x1024.numel
  transposes_S1024x1024_p1_0_S1024x1024 : S1024x1024.Transposes [1, 0] S1024x1024
  inb_S32x64x1024_S32x64x1024_0_0_0 : ∀ a, (![0, 0, 0] : Fin 3 → Nat) a + S32x64x1024.size a ≤ S32x64x1024.size a
  h_S32x64x1024 : 0 < S32x64x1024.numel
  shapeCasts_S32x64x1024_S2048x1024 : S32x64x1024.ShapeCasts S2048x1024
  shapeCasts_S1024x1024_S1024x1024 : S1024x1024.ShapeCasts S1024x1024
  shapeCasts_S2048x1024_S32x64x1024 : S2048x1024.ShapeCasts S32x64x1024
  shapeCasts_S64x1024_S64x1024 : S64x1024.ShapeCasts S64x1024
  shapeCasts_S64x1024_S1x64x1024 : S64x1024.ShapeCasts S1x64x1024
  broadcasts_S1x64x1024_S32x64x1024 : S1x64x1024.Broadcasts S32x64x1024
  slices_S512x64x1024_S1x64x1024_511_0_0 : S512x64x1024.Slices ![511, 0, 0] S1x64x1024
  shapeCasts_S1x64x1024_S64x1024 : S1x64x1024.ShapeCasts S64x1024
  dot_S64x1024_S1024x1024_S64x1024_1_0_0_1_n_n_wf : DotDims.WF S64x1024 S1024x1024 S64x1024 [1] [0] [0] [1] [] []
  dot_S2048x1024_S1024x1024_S2048x1024_1_0_0_1_n_n_wf : DotDims.WF S2048x1024 S1024x1024 S2048x1024 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x1024.size a ≤ S64x1024.size a
  hwx0_0 : ∀ i : grid0.Coords, EltTy.bits .f32 = 32 ∨ (Rect.block (s := S64x1024) S64x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x1024.size a ≤ S64x1024.size a
  hwx0_2 : ∀ i : grid0.Coords, EltTy.bits .f32 = 32 ∨ (Rect.block (s := S64x1024) S64x1024.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S32x64x1024.size a ≤ S512x64x1024.size a
  hwx1_0 : ∀ i : grid1.Coords, EltTy.bits .f32 = 32 ∨ (Rect.block (s := S512x64x1024) S32x64x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x1024.size a ≤ S64x1024.size a
  hwx1_2 : ∀ i : grid1.Coords, EltTy.bits .f32 = 32 ∨ (Rect.block (s := S64x1024) S64x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S32x64x1024.size a ≤ S512x64x1024.size a
  hwx1_3 : ∀ i : grid1.Coords, EltTy.bits .f32 = 32 ∨ (Rect.block (s := S512x64x1024) S32x64x1024.size (cc1_transform_3 i) (hinb1_3 i)).WholeWords (EltTy.packing .f32)

variable [Facts₀]

def dot_S64x1024_S1024x1024_S64x1024_1_0_0_1_n_n : DotDims S64x1024 S1024x1024 S64x1024 where
  lhsContracting := [1]
  rhsContracting := [0]
  lhsNonContracting := [0]
  rhsNonContracting := [1]
  lhsBatch := []
  rhsBatch := []
  wf := dot_S64x1024_S1024x1024_S64x1024_1_0_0_1_n_n_wf
def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf

abbrev win0_0 : Pipeline.Window sig grid0 :=
  Pipeline.Window.ofSpec (Memref.whole main_arg1) S64x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S64x1024.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S32x64x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S64x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S32x64x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S512x64x1024 : Shape := ⟨3, ![512, 64, 1024]⟩
abbrev S64x1024 : Shape := ⟨2, ![64, 1024]⟩
abbrev S1024x1024 : Shape := ⟨2, ![1024, 1024]⟩
abbrev S1x64x1024 : Shape := ⟨3, ![1, 64, 1024]⟩

abbrev nBuf : Space → Nat
  | .hbm => 13
  | .vmem => 0
  | .smem => 0
  | _ => 0

abbrev bufTy : (tb : Table) → Fin (tcTables nBuf tb) → BufTy
  | .hbm, ⟨0, _⟩ => ⟨S512x64x1024, .f32⟩
  | .hbm, ⟨1, _⟩ => ⟨S64x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S64x1024, .f32⟩
  | .hbm, ⟨6, _⟩ => ⟨S512x64x1024, .f32⟩
  | .hbm, ⟨7, _⟩ => ⟨S1x64x1024, .f32⟩
  | .hbm, ⟨8, _⟩ => ⟨S512x64x1024, .f32⟩
  | .hbm, ⟨9, _⟩ => ⟨S512x64x1024, .f32⟩
  | .hbm, ⟨10, _⟩ => ⟨S512x64x1024, .f32⟩
  | .hbm, ⟨11, _⟩ => ⟨S1x64x1024, .f32⟩
  | .hbm, ⟨12, _⟩ => ⟨S64x1024, .f32⟩
  | _, _ => ⟨S512x64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]

class Facts₀ : Prop where
  transposes_S1024x1024_S1024x1024_1_0 : S1024x1024.Transposes [1, 0] S1024x1024
  bcast_S64x1024_S1x64x1024_1_2 : S64x1024.BroadcastsInDim S1x64x1024 (![1, 2] : Fin 2 → Fin S1x64x1024.rank)
  bcast_S1x64x1024_S512x64x1024_0_1_2 : S1x64x1024.BroadcastsInDim S512x64x1024 (![0, 1, 2] : Fin 3 → Fin S512x64x1024.rank)
  slices_S512x64x1024_S1x64x1024_511_0_0 : S512x64x1024.Slices ![511, 0, 0] S1x64x1024
  shapeCasts_S1x64x1024_S64x1024 : S1x64x1024.ShapeCasts S64x1024
  dot_S64x1024_S1024x1024_S64x1024_1_0_0_1_n_n_wf : DotDims.WF S64x1024 S1024x1024 S64x1024 [1] [0] [0] [1] [] []
  dot_S512x64x1024_S1024x1024_S512x64x1024_2_1_01_0_n_n_wf : DotDims.WF S512x64x1024 S1024x1024 S512x64x1024 [2] [1] [0, 1] [0] [] []

variable [Facts₀]

def dot_S64x1024_S1024x1024_S64x1024_1_0_0_1_n_n : DotDims S64x1024 S1024x1024 S64x1024 where
  lhsContracting := [1]
  rhsContracting := [0]
  lhsNonContracting := [0]
  rhsNonContracting := [1]
  lhsBatch := []
  rhsBatch := []
  wf := dot_S64x1024_S1024x1024_S64x1024_1_0_0_1_n_n_wf
def dot_S512x64x1024_S1024x1024_S512x64x1024_2_1_01_0_n_n : DotDims S512x64x1024 S1024x1024 S512x64x1024 where
  lhsContracting := [2]
  rhsContracting := [1]
  lhsNonContracting := [0, 1]
  rhsNonContracting := [0]
  lhsBatch := []
  rhsBatch := []
  wf := dot_S512x64x1024_S1024x1024_S512x64x1024_2_1_01_0_n_n_wf

class Facts : Prop extends Facts₀ where

variable [Facts]
-- ==== Proof.Payload.lean ====
/-
  The two kernel bodies as arithmetic, read at one output element, at the ideal instance (a float an extended real,
  a change of format the identity).

  First body: a [64,1024] block `hs` against the transpose of a [1024,1024] block `Hm`, into a zero accumulator:
  element (b, h) is `∑ k, hs[b,k] · Hm[h,k]`.

  Second body: a [32,64,1024] block `x` flattened to [2048,1024] rows (row `t·64 + b`), multiplied with the transpose
  of a [1024,1024] block `w` into a zero accumulator, re-laid as [32,64,1024], a [64,1024] block `hterm` added to every
  one of the 32 leading slices, and `tanh` taken: element (t, b, h) is `tanh (∑ k, x[t,b,k] · w[h,k] + hterm[b,h])`.
-/
import proofs.«171107_j53214644797476_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx
open scoped BigOperators

/-! ## The first matrix product's operand indices, axis by axis -/

theorem lhsA_0 (i : S64x1024.Idx) (q : dot_S64x1024_S1024x1024_S64x1024_1_0_0_1_n_n.contr.Idx) :
    (dot_S64x1024_S1024x1024_S64x1024_1_0_0_1_n_n.lhsIdx i q 0).val = (i 0).val := by
  unfold DotDims.lhsIdx
  rw [dif_neg (show ¬(0 : Fin S64x1024.rank) ∈ dot_S64x1024_S1024x1024_S64x1024_1_0_0_1_n_n.lhsBatch by decide), dif_pos (show (0 : Fin S64x1024.rank) ∈ dot_S64x1024_S1024x1024_S64x1024_1_0_0_1_n_n.lhsNonContracting by decide)]
  rfl
theorem lhsA_1 (i : S64x1024.Idx) (q : dot_S64x1024_S1024x1024_S64x1024_1_0_0_1_n_n.contr.Idx) :
    (dot_S64x1024_S1024x1024_S64x1024_1_0_0_1_n_n.lhsIdx i q 1).val = (q ⟨0, by decide⟩).val :=
  dot_S64x1024_S1024x1024_S64x1024_1_0_0_1_n_n.lhsIdx_val_of_single rfl i q
theorem rhsA_0 (i : S64x1024.Idx) (q : dot_S64x1024_S1024x1024_S64x1024_1_0_0_1_n_n.contr.Idx) :
    (dot_S64x1024_S1024x1024_S64x1024_1_0_0_1_n_n.rhsIdx i q 0).val = (q ⟨0, by decide⟩).val :=
  dot_S64x1024_S1024x1024_S64x1024_1_0_0_1_n_n.rhsIdx_val_of_single rfl i q
theorem rhsA_1 (i : S64x1024.Idx) (q : dot_S64x1024_S1024x1024_S64x1024_1_0_0_1_n_n.contr.Idx) :
    (dot_S64x1024_S1024x1024_S64x1024_1_0_0_1_n_n.rhsIdx i q 1).val = (i 1).val := by
  unfold DotDims.rhsIdx
  rw [dif_neg (show ¬(1 : Fin S1024x1024.rank) ∈ dot_S64x1024_S1024x1024_S64x1024_1_0_0_1_n_n.rhsBatch by decide), dif_pos (show (1 : Fin S1024x1024.rank) ∈ dot_S64x1024_S1024x1024_S64x1024_1_0_0_1_n_n.rhsNonContracting by decide)]
  rfl

/-- A [64,1024] by [1024,1024] product into zero, at (b, h): the sum over the contracted axis. -/
theorem matmulA_apply (l : FVec Ideal S64x1024 .f32) (r : FVec Ideal S1024x1024 .f32) (b : Fin 64) (h : Fin 1024) :
    matmul dot_S64x1024_S1024x1024_S64x1024_1_0_0_1_n_n none l r (constant S64x1024 .f32 0x00000000#32) (ix2 b h)
      = ∑ k : Fin 1024, l (ix2 b k) * r (ix2 k h) := by
  simp only [matmul]
  rw [Ideal.matmul_constant_zero_apply, ← Equiv.sum_comp (contrEquiv1 dot_S64x1024_S1024x1024_S64x1024_1_0_0_1_n_n 1024 rfl rfl).symm]
  refine Finset.sum_congr rfl fun k _ => ?_
  have hk := contrEquiv1_symm_val dot_S64x1024_S1024x1024_S64x1024_1_0_0_1_n_n 1024 rfl rfl k
  have el : dot_S64x1024_S1024x1024_S64x1024_1_0_0_1_n_n.lhsIdx (ix2 b h) ((contrEquiv1 dot_S64x1024_S1024x1024_S64x1024_1_0_0_1_n_n 1024 rfl rfl).symm k) = (ix2 b k : S64x1024.Idx) := funext fun a => Fin.ext (by
    match a with
    | ⟨0, _⟩ => exact lhsA_0 _ _
    | ⟨1, _⟩ => exact (lhsA_1 _ _).trans hk)
  have er : dot_S64x1024_S1024x1024_S64x1024_1_0_0_1_n_n.rhsIdx (ix2 b h) ((contrEquiv1 dot_S64x1024_S1024x1024_S64x1024_1_0_0_1_n_n 1024 rfl rfl).symm k) = (ix2 k h : S1024x1024.Idx) := funext fun a => Fin.ext (by
    match a with
    | ⟨0, _⟩ => exact (rhsA_0 _ _).trans hk
    | ⟨1, _⟩ => exact rhsA_1 _ _)
  rw [el, er]

/-- A [1024,1024] matrix transposed, at (k, h): the matrix at (h, k). -/
theorem transpose_sq_apply {α : Type} (x : S1024x1024.Idx → α) (hT : S1024x1024.Transposes [1, 0] S1024x1024) (k h : Fin 1024) :
    transpose S1024x1024 [1, 0] x hT (ix2 k h) = x (ix2 h k) :=
  transpose_apply [1, 0] x hT (ix2 k h) (ix2 h k) (fun b => match b with
    | ⟨0, _⟩ => rfl
    | ⟨1, _⟩ => rfl)

/-- THE FIRST BODY at (b, h): `∑ k, hs[b,k] · Hm[h,k]`. -/
theorem hterm_pay (hs : Vec Ideal S64x1024 .f32) (Hm : Vec Ideal S1024x1024 .f32) (b : Fin 64) (h : Fin 1024) :
    k0_pay1 (F := Ideal) hs Hm (ix2 b h) = ∑ k : Fin 1024, hs (ix2 b k) * Hm (ix2 h k) := by
  unfold k0_pay1
  refine (matmulA_apply _ _ b h).trans ?_
  refine Finset.sum_congr rfl fun k _ => ?_
  rw [transpose_sq_apply]

/-! ## The second matrix product's operand indices, axis by axis -/

theorem lhsB_0 (i : S2048x1024.Idx) (q : dot_S2048x1024_S1024x1024_S2048x1024_1_0_0_1_n_n.contr.Idx) :
    (dot_S2048x1024_S1024x1024_S2048x1024_1_0_0_1_n_n.lhsIdx i q 0).val = (i 0).val := by
  unfold DotDims.lhsIdx
  rw [dif_neg (show ¬(0 : Fin S2048x1024.rank) ∈ dot_S2048x1024_S1024x1024_S2048x1024_1_0_0_1_n_n.lhsBatch by decide), dif_pos (show (0 : Fin S2048x1024.rank) ∈ dot_S2048x1024_S1024x1024_S2048x1024_1_0_0_1_n_n.lhsNonContracting by decide)]
  rfl
theorem lhsB_1 (i : S2048x1024.Idx) (q : dot_S2048x1024_S1024x1024_S2048x1024_1_0_0_1_n_n.contr.Idx) :
    (dot_S2048x1024_S1024x1024_S2048x1024_1_0_0_1_n_n.lhsIdx i q 1).val = (q ⟨0, by decide⟩).val :=
  dot_S2048x1024_S1024x1024_S2048x1024_1_0_0_1_n_n.lhsIdx_val_of_single rfl i q
theorem rhsB_0 (i : S2048x1024.Idx) (q : dot_S2048x1024_S1024x1024_S2048x1024_1_0_0_1_n_n.contr.Idx) :
    (dot_S2048x1024_S1024x1024_S2048x1024_1_0_0_1_n_n.rhsIdx i q 0).val = (q ⟨0, by decide⟩).val :=
  dot_S2048x1024_S1024x1024_S2048x1024_1_0_0_1_n_n.rhsIdx_val_of_single rfl i q
theorem rhsB_1 (i : S2048x1024.Idx) (q : dot_S2048x1024_S1024x1024_S2048x1024_1_0_0_1_n_n.contr.Idx) :
    (dot_S2048x1024_S1024x1024_S2048x1024_1_0_0_1_n_n.rhsIdx i q 1).val = (i 1).val := by
  unfold DotDims.rhsIdx
  rw [dif_neg (show ¬(1 : Fin S1024x1024.rank) ∈ dot_S2048x1024_S1024x1024_S2048x1024_1_0_0_1_n_n.rhsBatch by decide), dif_pos (show (1 : Fin S1024x1024.rank) ∈ dot_S2048x1024_S1024x1024_S2048x1024_1_0_0_1_n_n.rhsNonContracting by decide)]
  rfl

/-- A [2048,1024] by [1024,1024] product into zero, at (r, h): the sum over the contracted axis. -/
theorem matmulB_apply (l : FVec Ideal S2048x1024 .bf16) (r : FVec Ideal S1024x1024 .bf16) (p : Fin 2048) (h : Fin 1024) :
    matmul dot_S2048x1024_S1024x1024_S2048x1024_1_0_0_1_n_n none l r (constant S2048x1024 .f32 0x00000000#32) (ix2 p h)
      = ∑ k : Fin 1024, l (ix2 p k) * r (ix2 k h) := by
  simp only [matmul]
  rw [Ideal.matmul_constant_zero_apply, ← Equiv.sum_comp (contrEquiv1 dot_S2048x1024_S1024x1024_S2048x1024_1_0_0_1_n_n 1024 rfl rfl).symm]
  refine Finset.sum_congr rfl fun k _ => ?_
  have hk := contrEquiv1_symm_val dot_S2048x1024_S1024x1024_S2048x1024_1_0_0_1_n_n 1024 rfl rfl k
  have el : dot_S2048x1024_S1024x1024_S2048x1024_1_0_0_1_n_n.lhsIdx (ix2 p h) ((contrEquiv1 dot_S2048x1024_S1024x1024_S2048x1024_1_0_0_1_n_n 1024 rfl rfl).symm k) = (ix2 p k : S2048x1024.Idx) := funext fun a => Fin.ext (by
    match a with
    | ⟨0, _⟩ => exact lhsB_0 _ _
    | ⟨1, _⟩ => exact (lhsB_1 _ _).trans hk)
  have er : dot_S2048x1024_S1024x1024_S2048x1024_1_0_0_1_n_n.rhsIdx (ix2 p h) ((contrEquiv1 dot_S2048x1024_S1024x1024_S2048x1024_1_0_0_1_n_n 1024 rfl rfl).symm k) = (ix2 k h : S1024x1024.Idx) := funext fun a => Fin.ext (by
    match a with
    | ⟨0, _⟩ => exact (rhsB_0 _ _).trans hk
    | ⟨1, _⟩ => exact rhsB_1 _ _)
  rw [el, er]

/-! ## The re-layings of the second body, read at an index -/

/-- Row `t·64 + b` of the flattened block. -/
def row (t : Fin 32) (b : Fin 64) : Fin 2048 := ⟨t.val * 64 + b.val, by have := t.isLt; have := b.isLt; omega⟩

/-- [2048,1024] re-laid as [32,64,1024], at (t, b, h): the matrix at (t·64 + b, h). -/
theorem unflatten_apply {α : Type} (x : S2048x1024.Idx → α) (hc : S2048x1024.ShapeCasts S32x64x1024) (t : Fin 32) (b : Fin 64) (h : Fin 1024) :
    shapeCast S32x64x1024 x hc (ix3 t b h) = x (ix2 (row t b) h) :=
  shapeCast_apply x hc (ix3 t b h) (ix2 (row t b) h)
    (by rewrite [Shape.rowMajor_val_three, Shape.rowMajor_val_two]; show (t.val * 64 + b.val) * 1024 + h.val = (t.val * 64 + b.val) * 1024 + h.val; rfl)

/-- [32,64,1024] flattened to [2048,1024], at (t·64 + b, k): the block at (t, b, k). -/
theorem flatten_apply {α : Type} (x : S32x64x1024.Idx → α) (hc : S32x64x1024.ShapeCasts S2048x1024) (t : Fin 32) (b : Fin 64) (k : Fin 1024) :
    shapeCast S2048x1024 x hc (ix2 (row t b) k) = x (ix3 t b k) :=
  shapeCast_apply x hc (ix2 (row t b) k) (ix3 t b k)
    (by rewrite [Shape.rowMajor_val_three, Shape.rowMajor_val_two]; show (t.val * 64 + b.val) * 1024 + k.val = (t.val * 64 + b.val) * 1024 + k.val; rfl)

/-- A [64,1024] block given a leading unit axis and repeated along it 32 times, at (t, b, h): the block at (b, h). -/
theorem bias_apply {α : Type} (x : S64x1024.Idx → α) (h1 : S64x1024.ShapeCasts S1x64x1024) (h2 : S1x64x1024.Broadcasts S32x64x1024)
    (t : Fin 32) (b : Fin 64) (h : Fin 1024) :
    broadcastTo S32x64x1024 (shapeCast S1x64x1024 x h1) h2 (ix3 t b h) = x (ix2 b h) := by
  rw [broadcastTo_apply _ h2 (ix3 t b h) (ix3 (⟨0, Nat.one_pos⟩ : Fin 1) b h) (fun a => match a with
    | ⟨0, _⟩ => by show (0 : Nat) = if (1 : Nat) = 1 then 0 else t.val; rw [if_pos rfl]
    | ⟨1, _⟩ => by show b.val = if (64 : Nat) = 1 then 0 else b.val; rw [if_neg (by decide)]
    | ⟨2, _⟩ => by show h.val = if (1024 : Nat) = 1 then 0 else h.val; rw [if_neg (by decide)])]
  exact shapeCast_apply x h1 (ix3 (⟨0, Nat.one_pos⟩ : Fin 1) b h) (ix2 b h)
    (by rewrite [Shape.rowMajor_val_three, Shape.rowMajor_val_two]; show b.val * 1024 + h.val = (0 * 64 + b.val) * 1024 + h.val; omega)

/-- THE SECOND BODY at (t, b, h): `tanh (∑ k, x[t,b,k] · w[h,k] + hterm[b,h])`. -/
theorem rnn_pay (x : Vec Ideal S32x64x1024 .f32) (w : Vec Ideal S1024x1024 .bf16) (hterm : Vec Ideal S64x1024 .f32)
    (t : Fin 32) (b : Fin 64) (h : Fin 1024) :
    k1_pay1 (F := Ideal) x w hterm (ix3 t b h)
      = Ideal.tanh ((∑ k : Fin 1024, x (ix3 t b k) * w (ix2 h k)) + hterm (ix2 b h)) := by
  unfold k1_pay1
  show Ideal.tanh (_ + _) = _
  congr 2
  · rw [unflatten_apply, matmulB_apply]
    refine Finset.sum_congr rfl fun k _ => ?_
    rw [flatten_apply, transpose_sq_apply, shapeCast_self]
    rfl
  · rw [bias_apply, shapeCast_self]

end Cert.KernelIdeal.Body

end
-- ==== Proof.Spec.lean ====
/-
  The function both programs compute, over the extended reals, index by index.

  With X : [512,64,1024], hs : [64,1024], W : [1024,1024], Hm : [1024,1024]:

    hterm[b,h]   = ∑ k, hs[b,k] · Hm[h,k]                          (hs · Hmᵀ)
    out[t,b,h]   = tanh (∑ k, X[t,b,k] · W[h,k] + hterm[b,h])      (X_t · Wᵀ + hterm, then tanh)

  and the second result is the last leading slice of the first, `out[511,·,·]`, as a [64,1024] array.
  Only sums of products in one and the same order occur on both sides, so no law that needs finiteness is used.
-/
import Idealize.ShloMosaic.PureOps.Ideal
import Idealize.ShloMosaic.Lib.ValueIdx

noncomputable section

namespace Cert.Spec

open Idealize.ShloMosaic Idealize.ShloMosaic.ValueIdx
open scoped BigOperators

abbrev SX : Shape := ⟨3, ![512, 64, 1024]⟩
abbrev SH : Shape := ⟨2, ![64, 1024]⟩
abbrev SW : Shape := ⟨2, ![1024, 1024]⟩

/-- `hterm[b,h] = ∑ k, hs[b,k] · Hm[h,k]`. -/
def hterm (hs : SH.Idx → EReal) (Hm : SW.Idx → EReal) (b : Fin 64) (h : Fin 1024) : EReal :=
  ∑ k : Fin 1024, hs (ix2 b k) * Hm (ix2 h k)

/-- The same as an array. -/
def Hterm (hs : SH.Idx → EReal) (Hm : SW.Idx → EReal) : SH.Idx → EReal :=
  fun i => hterm hs Hm ⟨(i 0).val, (i 0).isLt⟩ ⟨(i 1).val, (i 1).isLt⟩

theorem Hterm_ix (hs : SH.Idx → EReal) (Hm : SW.Idx → EReal) (b : Fin 64) (h : Fin 1024) :
    Hterm hs Hm (ix2 b h) = hterm hs Hm b h := rfl

/-- `out[t,b,h] = tanh (∑ k, X[t,b,k] · W[h,k] + ht[b,h])`. -/
def out (X : SX.Idx → EReal) (W : SW.Idx → EReal) (ht : SH.Idx → EReal) (t : Fin 512) (b : Fin 64) (h : Fin 1024) : EReal :=
  Ideal.tanh ((∑ k : Fin 1024, X (ix3 t b k) * W (ix2 h k)) + ht (ix2 b h))

/-- The same as an array. -/
def Out (X : SX.Idx → EReal) (W : SW.Idx → EReal) (ht : SH.Idx → EReal) : SX.Idx → EReal :=
  fun i => out X W ht ⟨(i 0).val, (i 0).isLt⟩ ⟨(i 1).val, (i 1).isLt⟩ ⟨(i 2).val, (i 2).isLt⟩

theorem Out_ix (X : SX.Idx → EReal) (W : SW.Idx → EReal) (ht : SH.Idx → EReal) (t : Fin 512) (b : Fin 64) (h : Fin 1024) :
    Out X W ht (ix3 t b h) = out X W ht t b h := rfl

/-- The whole first result as a function of the four arguments. -/
def Result (X : SX.Idx → EReal) (hs : SH.Idx → EReal) (W Hm : SW.Idx → EReal) : SX.Idx → EReal :=
  Out X W (Hterm hs Hm)

end Cert.Spec

end
-- ==== Proof.KernelValue.lean ====
/-
  What the kernel's program leaves in its result buffers, at the ideal instance, as the specification's arrays.

  The program is: a host conversion of W to bf16 (the identity on extended reals); a one-point pallas_call that writes
  `hterm = hs · Hmᵀ` whole; a 16-point pallas_call whose point `t` reads leading slices `32t … 32t + 31` of X, all of W and
  all of `hterm`, and writes the same 32 leading slices of the output; then the last leading slice taken out and re-laid
  as [64,1024]. Each pallas_call's output array is read off its write-backs: every point writes its block of ONE
  whole-array function, and the blocks cover the array.
-/
import proofs.«171107_j53214644797476_1_alg».proof.Proof.Gen.KernelIdeal.Frame
import proofs.«171107_j53214644797476_1_alg».proof.Proof.Payload
import proofs.«171107_j53214644797476_1_alg».proof.Proof.Spec
import Idealize.ShloMosaic.Lib.Pipeline.Value
import Idealize.ShloMosaic.Lib.ValueIdx
import Idealize.ShloMosaic.Lib.StableHlo.Run
import Idealize.ShloMosaic.Lib.Tactic

set_option maxRecDepth 16384

noncomputable section

namespace Cert.KernelIdeal.KValue

open Cert.KernelIdeal Cert.KernelIdeal.Gen Cert.KernelIdeal.Body
open Idealize.ShloMosaic Idealize.ShloMosaic.TcCoe Idealize.SL.Sem Idealize.ShloMosaic.ValueIdx Idealize.ShloMosaic.StableHlo
open Idealize.ShloMosaic.Pipeline (Dat)
open scoped BigOperators

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-! ## The buffer contents the two regions are entered from -/

/-- The first region finds `hs` as launched (the conversion before it writes another buffer). -/
theorem V1_arg1 (c : Dev nD) : V1 m ρ c main_arg1 = m ((c : Thread nD τ).loc main_arg1) := by
  show StableHlo.after hostOps0 (W0 m ρ c) (Proc.devRef .tc main_arg1) = _
  after_results <;> rfl
/-- The first region finds `Hm` as launched. -/
theorem V1_arg3 (c : Dev nD) : V1 m ρ c main_arg3 = m ((c : Thread nD τ).loc main_arg3) := by
  show StableHlo.after hostOps0 (W0 m ρ c) (Proc.devRef .tc main_arg3) = _
  after_results <;> rfl
/-- The second region finds X as launched. -/
theorem V2_arg0 (c : Dev nD) : V2 m ρ c main_arg0 = m ((c : Thread nD τ).loc main_arg0) := by
  refine (W2_of_ne m ρ c main_arg0 (by decide)).trans ?_
  show StableHlo.after hostOps0 (W0 m ρ c) (Proc.devRef .tc main_arg0) = _
  after_results <;> rfl
/-- The second region finds, in the converted copy of W, W itself: a change of float format is the identity. -/
theorem V2_v0 (c : Dev nD) : (V2 m ρ c main_v0 : S1024x1024.Idx → EReal) = (m ((c : Thread nD τ).loc main_arg2) : S1024x1024.Idx → EReal) := by
  refine (W2_of_ne m ρ c main_v0 (by decide)).trans ?_
  show StableHlo.after hostOps0 (W0 m ρ c) (Proc.devRef .tc main_v0) = _
  after_results <;> rfl
/-- The second region finds, in the first region's output buffer, what the first region's write-backs left. -/
theorem V2_v1 (c : Dev nD) : V2 m ρ c main_v1 = (dat0 (V1 m ρ) c).arrAt 2 cfg0.N := W2_arr m ρ c 2

/-! ## The printed index maps, decided over the two grids -/

/-- The one point of the first grid is at block (0, 0) of each of its three windows. -/
theorem idx0 : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- Point `t` of the second grid is at block (t, 0, 0) of X and of the output, and at block (0, 0) of W and `hterm`. -/
theorem idx1 : ∀ t : Fin cfg1.N, win1_0.index t (0 : Fin 3) = t.val ∧ win1_0.index t (1 : Fin 3) = 0 ∧ win1_0.index t (2 : Fin 3) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 3) = t.val ∧ win1_3.index t (1 : Fin 3) = 0 ∧ win1_3.index t (2 : Fin 3) = 0 :=
  (by decide +kernel : ∀ t : Fin grid1.N, _)

/-! ## The bodies on blocks that are parts of whole arrays -/

/-- The first body on blocks that agree with whole arrays `HS`, `HM`, at a block index `j` that sits at array index `i`:
    the specification's `hterm` there. -/
theorem hterm_block (hs : Vec Ideal S64x1024 .f32) (Hm : Vec Ideal S1024x1024 .f32)
    (HS : Cert.Spec.SH.Idx → EReal) (HM : Cert.Spec.SW.Idx → EReal)
    (hhs : ∀ (b : Fin 64) (k : Fin 1024), hs (ix2 b k) = HS (ix2 b k))
    (hhm : ∀ (h k : Fin 1024), Hm (ix2 h k) = HM (ix2 h k))
    (j i : S64x1024.Idx) (h0 : (i 0).val = (j 0).val) (h1 : (i 1).val = (j 1).val) :
    k0_pay1 (F := Ideal) hs Hm j = Cert.Spec.Hterm HS HM i := by
  obtain ⟨b, h, rfl⟩ : ∃ (b : Fin 64) (h : Fin 1024), j = ix2 b h := ⟨j 0, j 1, eq_ix2 j⟩
  obtain ⟨b', h', rfl⟩ : ∃ (b' : Fin 64) (h' : Fin 1024), i = ix2 b' h' := ⟨i 0, i 1, eq_ix2 i⟩
  have hb : b = b' := (Fin.ext h0).symm
  have hh : h = h' := (Fin.ext h1).symm
  subst hb hh
  rw [hterm_pay, Cert.Spec.Hterm_ix]
  unfold Cert.Spec.hterm
  exact Finset.sum_congr rfl fun k _ => by rw [hhs, hhm]

/-- The second body on blocks of which the first is leading slices `32p … 32p + 31` of a whole array `X` and the other two
    ARE whole arrays `W`, `Ht`, at a block index `j` that sits at array index `i` (`32p` further on the leading axis): the
    specification's `out` there. -/
theorem out_block (x : Vec Ideal S32x64x1024 .f32) (w : Vec Ideal S1024x1024 .bf16) (ht : Vec Ideal S64x1024 .f32)
    (X : Cert.Spec.SX.Idx → EReal) (W : Cert.Spec.SW.Idx → EReal) (Ht : Cert.Spec.SH.Idx → EReal) (p : Nat)
    (hx : ∀ (tt : Fin 32) (b : Fin 64) (k : Fin 1024) (T : Fin 512), T.val = p * 32 + tt.val → x (ix3 tt b k) = X (ix3 T b k))
    (hw : ∀ (h k : Fin 1024), w (ix2 h k) = W (ix2 h k))
    (hh : ∀ (b : Fin 64) (h : Fin 1024), ht (ix2 b h) = Ht (ix2 b h))
    (j : S32x64x1024.Idx) (i : S512x64x1024.Idx)
    (h0 : (i 0).val = p * 32 + (j 0).val) (h1 : (i 1).val = (j 1).val) (h2 : (i 2).val = (j 2).val) :
    k1_pay1 (F := Ideal) x w ht j = Cert.Spec.Out X W Ht i := by
  obtain ⟨tt, b, h, rfl⟩ : ∃ (tt : Fin 32) (b : Fin 64) (h : Fin 1024), j = ix3 tt b h := ⟨j 0, j 1, j 2, eq_ix3 j⟩
  obtain ⟨T, b', h', rfl⟩ : ∃ (T : Fin 512) (b' : Fin 64) (h' : Fin 1024), i = ix3 T b' h' := ⟨i 0, i 1, i 2, eq_ix3 i⟩
  have hb : b = b' := (Fin.ext h1).symm
  have hh' : h = h' := (Fin.ext h2).symm
  subst hb hh'
  rw [rnn_pay, Cert.Spec.Out_ix]
  unfold Cert.Spec.out
  congr 2
  · exact Finset.sum_congr rfl fun k _ => by rw [hx tt b k T h0, hw]
  · exact hh _ _

/-! ## The first region's blocks, and its output array -/

/-- The first region's block of `hs` is `hs` as launched. -/
theorem hsBlk_apply (c : Dev nD) (t : Fin cfg0.N) (b : Fin 64) (k : Fin 1024) :
    (iblk0 (V1 m ρ) c 0 t : Vec Ideal S64x1024 .f32) (ix2 b k) = (m ((c : Thread nD τ).loc main_arg1) : S64x1024.Idx → EReal) (ix2 b k) := by
  obtain ⟨e0, e1, -⟩ := idx0 t
  unfold iblk0
  rw [View.read_apply]
  show (V1 m ρ c main_arg1 : S64x1024.Idx → EReal) _ = _
  refine (congrFun (V1_arg1 m ρ c) _).trans (congrArg _ (funext fun a => Fin.ext ?_))
  match a with
  | ⟨0, _⟩ => show win0_0.index t (0 : Fin 2) * 64 + 1 * b.val = b.val; rw [e0]; omega
  | ⟨1, _⟩ => show win0_0.index t (1 : Fin 2) * 1024 + 1 * k.val = k.val; rw [e1]; omega

/-- The first region's block of `Hm` is `Hm` as launched. -/
theorem hmBlk_apply (c : Dev nD) (t : Fin cfg0.N) (h k : Fin 1024) :
    (iblk0 (V1 m ρ) c 1 t : Vec Ideal S1024x1024 .f32) (ix2 h k) = (m ((c : Thread nD τ).loc main_arg3) : S1024x1024.Idx → EReal) (ix2 h k) := by
  obtain ⟨-, -, e0, e1, -⟩ := idx0 t
  unfold iblk0
  rw [View.read_apply]
  show (V1 m ρ c main_arg3 : S1024x1024.Idx → EReal) _ = _
  refine (congrFun (V1_arg3 m ρ c) _).trans (congrArg _ (funext fun a => Fin.ext ?_))
  match a with
  | ⟨0, _⟩ => show win0_1.index t (0 : Fin 2) * 1024 + 1 * h.val = h.val; rw [e0]; omega
  | ⟨1, _⟩ => show win0_1.index t (1 : Fin 2) * 1024 + 1 * k.val = k.val; rw [e1]; omega

/-- The specification's `hterm` of the launched `hs` and `Hm`. -/
abbrev HT (c : Dev nD) : Cert.Spec.SH.Idx → EReal :=
  Cert.Spec.Hterm (m ((c : Thread nD τ).loc main_arg1)) (m ((c : Thread nD τ).loc main_arg3))

/-- What the first region's one point writes back is its block of `hterm`. -/
theorem flushed0 (c : Dev nD) (t : Fin cfg0.N) :
    (dat0 (V1 m ρ) c).flushed 2 t = ((cfg0.win 2).blk t).view.read (Elt Ideal) (HT m c) := by
  obtain ⟨-, -, -, -, e0, e1⟩ := idx0 t
  show (cfg0.win 2).cut (grid0.coords t) ((dat0 (V1 m ρ) c).after 2 t) = _
  rw [after0_2]
  unfold out0_2
  rw [View.canon_unit_zero hz2]
  simp only [View.ld_unit_zero (S := S64x1024) hz2, View.ld_unit_zero (S := S1024x1024) hz2]
  funext j
  refine hterm_block (iblk0 (V1 m ρ) c 0 t) (iblk0 (V1 m ρ) c 1 t) _ _ (hsBlk_apply m ρ c t) (hmBlk_apply m ρ c t) j
    (((cfg0.win 2).blk t).view.emb j) ?_ ?_
  · show win0_2.index t (0 : Fin 2) * 64 + 1 * (j 0).val = (j 0).val; rw [e0]; omega
  · show win0_2.index t (1 : Fin 2) * 1024 + 1 * (j 1).val = (j 1).val; rw [e1]; omega

/-- An index of the [64,1024] array is in point `t`'s block iff each coordinate is in the block's range on its axis. -/
theorem mem_blk0 (t : Fin cfg0.N) (i : S64x1024.Idx) :
    i ∈ ((cfg0.win 2).blk t).view.set ↔ ∀ a : Fin 2, win0_2.index t a * S64x1024.size a ≤ (i a).val ∧ (i a).val < win0_2.index t a * S64x1024.size a + S64x1024.size a := by
  show i ∈ ((View.whole main_v1).slice (win0_2.rect t)).set ↔ _
  rw [View.set_slice_whole, Rect.mem_set_unit]
  exact Iff.rfl

/-- THE FIRST REGION'S OUTPUT ARRAY after its run: `hterm`. -/
theorem final0 (c : Dev nD) : (dat0 (V1 m ρ) c).arrAt 2 cfg0.N = HT m c :=
  (dat0 (V1 m ρ) c).arrAt_eq_of_cover 2 (HT m c) (fun t _ => flushed0 m ρ c t) fun i => by
    have hi0 : (i 0).val < 64 := (i 0).isLt
    have hi1 : (i 1).val < 1024 := (i 1).isLt
    obtain ⟨-, -, -, -, e0, e1⟩ := idx0 t0_0
    refine ⟨t0_0, flush0_2 t0_0, ?_⟩
    rw [mem_blk0]
    intro a
    match a with
    | ⟨0, _⟩ => show win0_2.index t0_0 (0 : Fin 2) * 64 ≤ (i 0).val ∧ (i 0).val < win0_2.index t0_0 (0 : Fin 2) * 64 + 64; rw [e0]; omega
    | ⟨1, _⟩ => show win0_2.index t0_0 (1 : Fin 2) * 1024 ≤ (i 1).val ∧ (i 1).val < win0_2.index t0_0 (1 : Fin 2) * 1024 + 1024; rw [e1]; omega

/-! ## The second region's blocks, and its output array -/

/-- The second region's block of X at point `t` is leading slices `32t … 32t + 31` of X as launched. -/
theorem xBlk_apply (c : Dev nD) (t : Fin cfg1.N) (tt : Fin 32) (b : Fin 64) (k : Fin 1024) (T : Fin 512) (hT : T.val = t.val * 32 + tt.val) :
    (iblk1 (V2 m ρ) c 0 t : Vec Ideal S32x64x1024 .f32) (ix3 tt b k) = (m ((c : Thread nD τ).loc main_arg0) : S512x64x1024.Idx → EReal) (ix3 T b k) := by
  obtain ⟨e0, e1, e2, -⟩ := idx1 t
  unfold iblk1
  rw [View.read_apply]
  show (V2 m ρ c main_arg0 : S512x64x1024.Idx → EReal) _ = _
  refine (congrFun (V2_arg0 m ρ c) _).trans (congrArg _ (funext fun a => Fin.ext ?_))
  match a with
  | ⟨0, _⟩ => show win1_0.index t (0 : Fin 3) * 32 + 1 * tt.val = T.val; rw [e0, hT]; omega
  | ⟨1, _⟩ => show win1_0.index t (1 : Fin 3) * 64 + 1 * b.val = b.val; rw [e1]; omega
  | ⟨2, _⟩ => show win1_0.index t (2 : Fin 3) * 1024 + 1 * k.val = k.val; rw [e2]; omega

/-- The second region's block of the converted W is W as launched. -/
theorem wBlk_apply (c : Dev nD) (t : Fin cfg1.N) (h k : Fin 1024) :
    (iblk1 (V2 m ρ) c 1 t : Vec Ideal S1024x1024 .bf16) (ix2 h k) = (m ((c : Thread nD τ).loc main_arg2) : S1024x1024.Idx → EReal) (ix2 h k) := by
  obtain ⟨-, -, -, e0, e1, -⟩ := idx1 t
  unfold iblk1
  rw [View.read_apply]
  show (V2 m ρ c main_v0 : S1024x1024.Idx → EReal) _ = _
  refine (congrFun (V2_v0 m ρ c) _).trans (congrArg _ (funext fun a => Fin.ext ?_))
  match a with
  | ⟨0, _⟩ => show win1_1.index t (0 : Fin 2) * 1024 + 1 * h.val = h.val; rw [e0]; omega
  | ⟨1, _⟩ => show win1_1.index t (1 : Fin 2) * 1024 + 1 * k.val = k.val; rw [e1]; omega

/-- The second region's block of the first region's output is `hterm`. -/
theorem htBlk_apply (c : Dev nD) (t : Fin cfg1.N) (b : Fin 64) (h : Fin 1024) :
    (iblk1 (V2 m ρ) c 2 t : Vec Ideal S64x1024 .f32) (ix2 b h) = HT m c (ix2 b h) := by
  obtain ⟨-, -, -, -, -, e0, e1, -⟩ := idx1 t
  unfold iblk1
  rw [View.read_apply]
  show (V2 m ρ c main_v1 : S64x1024.Idx → EReal) _ = _
  refine (congrFun ((V2_v1 m ρ c).trans (final0 m ρ c)) _).trans (congrArg _ (funext fun a => Fin.ext ?_))
  match a with
  | ⟨0, _⟩ => show win1_2.index t (0 : Fin 2) * 64 + 1 * b.val = b.val; rw [e0]; omega
  | ⟨1, _⟩ => show win1_2.index t (1 : Fin 2) * 1024 + 1 * h.val = h.val; rw [e1]; omega

/-- The specification's first result of the four launched arguments. -/
abbrev RES (c : Dev nD) : Cert.Spec.SX.Idx → EReal :=
  Cert.Spec.Result (m ((c : Thread nD τ).loc main_arg0)) (m ((c : Thread nD τ).loc main_arg1))
    (m ((c : Thread nD τ).loc main_arg2)) (m ((c : Thread nD τ).loc main_arg3))

/-- What point `t` of the second region writes back is its block of the result. -/
theorem flushed1 (c : Dev nD) (t : Fin cfg1.N) :
    (dat1 (V2 m ρ) c).flushed 3 t = ((cfg1.win 3).blk t).view.read (Elt Ideal) (RES m c) := by
  obtain ⟨-, -, -, -, -, -, -, e0, e1, e2⟩ := idx1 t
  show (cfg1.win 3).cut (grid1.coords t) ((dat1 (V2 m ρ) c).after 3 t) = _
  rw [after1_3]
  unfold out1_3
  rw [View.canon_unit_zero hz3]
  simp only [View.ld_unit_zero (S := S32x64x1024) hz3, View.ld_unit_zero (S := S1024x1024) hz2, View.ld_unit_zero (S := S64x1024) hz2]
  funext j
  refine out_block (iblk1 (V2 m ρ) c 0 t) (iblk1 (V2 m ρ) c 1 t) (iblk1 (V2 m ρ) c 2 t) _ _ _ t.val
    (xBlk_apply m ρ c t) (wBlk_apply m ρ c t) (htBlk_apply m ρ c t) j (((cfg1.win 3).blk t).view.emb j) ?_ ?_ ?_
  · show win1_3.index t (0 : Fin 3) * 32 + 1 * (j 0).val = t.val * 32 + (j 0).val; rw [e0]; omega
  · show win1_3.index t (1 : Fin 3) * 64 + 1 * (j 1).val = (j 1).val; rw [e1]; omega
  · show win1_3.index t (2 : Fin 3) * 1024 + 1 * (j 2).val = (j 2).val; rw [e2]; omega

/-- An index of the [512,64,1024] array is in point `t`'s block iff each coordinate is in the block's range on its axis. -/
theorem mem_blk1 (t : Fin cfg1.N) (i : S512x64x1024.Idx) :
    i ∈ ((cfg1.win 3).blk t).view.set ↔ ∀ a : Fin 3, win1_3.index t a * S32x64x1024.size a ≤ (i a).val ∧ (i a).val < win1_3.index t a * S32x64x1024.size a + S32x64x1024.size a := by
  show i ∈ ((View.whole main_v2).slice (win1_3.rect t)).set ↔ _
  rw [View.set_slice_whole, Rect.mem_set_unit]
  exact Iff.rfl

/-- THE SECOND REGION'S OUTPUT ARRAY after its run: the result. Leading slice `s` is in the block of point `s / 32`. -/
theorem final1 (c : Dev nD) : (dat1 (V2 m ρ) c).arrAt 3 cfg1.N = RES m c :=
  (dat1 (V2 m ρ) c).arrAt_eq_of_cover 3 (RES m c) (fun t _ => flushed1 m ρ c t) fun i => by
    have hi0 : (i 0).val < 512 := (i 0).isLt
    have hi1 : (i 1).val < 64 := (i 1).isLt
    have hi2 : (i 2).val < 1024 := (i 2).isLt
    have hN : cfg1.N = 16 := N_1
    obtain ⟨-, -, -, -, -, -, -, e0, e1, e2⟩ := idx1 ⟨(i 0).val / 32, by rw [hN]; omega⟩
    refine ⟨⟨(i 0).val / 32, by rw [hN]; omega⟩, flush1_3 _, ?_⟩
    rw [mem_blk1]
    intro a
    match a with
    | ⟨0, _⟩ => show win1_3.index ⟨(i 0).val / 32, _⟩ (0 : Fin 3) * 32 ≤ (i 0).val ∧ (i 0).val < win1_3.index ⟨(i 0).val / 32, _⟩ (0 : Fin 3) * 32 + 32; rw [e0]; show (i 0).val / 32 * 32 ≤ (i 0).val ∧ (i 0).val < (i 0).val / 32 * 32 + 32; omega
    | ⟨1, _⟩ => show win1_3.index ⟨(i 0).val / 32, _⟩ (1 : Fin 3) * 64 ≤ (i 1).val ∧ (i 1).val < win1_3.index ⟨(i 0).val / 32, _⟩ (1 : Fin 3) * 64 + 64; rw [e1]; omega
    | ⟨2, _⟩ => show win1_3.index ⟨(i 0).val / 32, _⟩ (2 : Fin 3) * 1024 ≤ (i 2).val ∧ (i 2).val < win1_3.index ⟨(i 0).val / 32, _⟩ (2 : Fin 3) * 1024 + 1024; rw [e2]; omega

/-! ## The two result buffers at the end of the run -/

/-- The last leading slice of a [512,64,1024] array, re-laid as [64,1024]: the host operations after the second region. -/
def lastSlice (A : S512x64x1024.Idx → EReal) : S64x1024.Idx → EReal :=
  shapeCast S64x1024 (extractStridedSlice S1x64x1024 ![511, 0, 0] A slices_S512x64x1024_S1x64x1024_511_0_0) shapeCasts_S1x64x1024_S64x1024

/-- The first result buffer ends at the result. -/
theorem W4_v2 (c : Dev nD) : (W4 m ρ c (Proc.devRef .tc main_v2) : S512x64x1024.Idx → EReal) = RES m c := by
  refine Eq.trans ?_ ((W3_arr m ρ c 3).trans (final1 m ρ c))
  show StableHlo.after hostOps2 (W3 m ρ c) (Proc.devRef .tc main_v2) = _
  after_results <;> rfl

/-- The second result buffer ends at the last leading slice of the result. -/
theorem W4_v4 (c : Dev nD) : (W4 m ρ c (Proc.devRef .tc main_v4) : S64x1024.Idx → EReal) = lastSlice (RES m c) := by
  have h : (W4 m ρ c (Proc.devRef .tc main_v4) : S64x1024.Idx → EReal) = lastSlice (W3 m ρ c (Proc.devRef .tc main_v2)) := by
    show StableHlo.after hostOps2 (W3 m ρ c) (Proc.devRef .tc main_v4) = _
    after_results <;> rfl
  rw [h]
  exact congrArg lastSlice ((W3_arr m ρ c 3).trans (final1 m ρ c))

end Cert.KernelIdeal.KValue

end
-- ==== Proof.RefValue.lean ====
/-
  The reference's first result, read one operation at a time at an index, is the specification's array:
  at (t, b, h) the host's two matrix products are the sums `∑ k, X[t,b,k] · W[h,k]` and `∑ k, hs[b,k] · Hmᵀ[k,h]`,
  the second repeated along the leading axis, their sum under `tanh`.
-/
import proofs.«171107_j53214644797476_1_alg».proof.Proof.Gen.ReferenceIdeal.Run
import proofs.«171107_j53214644797476_1_alg».proof.Proof.Gen.ReferenceIdeal.Read
import proofs.«171107_j53214644797476_1_alg».proof.Proof.Spec

noncomputable section

namespace Cert.ReferenceIdeal.RefValue

open Cert.ReferenceIdeal Cert.ReferenceIdeal.Gen Cert.ReferenceIdeal.Read
open Idealize.ShloMosaic Idealize.ShloMosaic.ValueIdx
open scoped BigOperators

/-- The reference's first result is `Spec.Result` of its four arguments. -/
theorem result_eq (x0 : (⟨S512x64x1024, .f32⟩ : BufTy).Contents (Elt Ideal)) (x1 : (⟨S64x1024, .f32⟩ : BufTy).Contents (Elt Ideal))
    (x2 x3 : (⟨S1024x1024, .f32⟩ : BufTy).Contents (Elt Ideal)) :
    val_main_v6 (F := Ideal) x0 x1 x2 x3 = Cert.Spec.Result x0 x1 x2 x3 := by
  funext i
  obtain ⟨t, b, h, rfl⟩ : ∃ (t : Fin 512) (b : Fin 64) (h : Fin 1024), i = ix3 t b h := ⟨i 0, i 1, i 2, eq_ix3 i⟩
  rw [val_main_v6_apply, val_main_v5_apply, val_main_v2_apply, val_main_v4_apply, val_main_v3_apply, val_main_v1_apply]
  have e1 : ∀ k : Fin 1024, lidx_main_v2 (ix3 t b h) k = (ix3 t b k : S512x64x1024.Idx) := fun k => funext fun a => by
    match a with
    | ⟨0, _⟩ => rfl
    | ⟨1, _⟩ => rfl
    | ⟨2, _⟩ => rfl
  have e2 : ∀ k : Fin 1024, ridx_main_v2 (ix3 t b h) k = (ix2 h k : S1024x1024.Idx) := fun k => funext fun a => by
    match a with
    | ⟨0, _⟩ => rfl
    | ⟨1, _⟩ => rfl
  have e3 : ∀ k : Fin 1024, lidx_main_v1 (idx_main_v3 (idx_main_v4 (ix3 t b h))) k = (ix2 b k : S64x1024.Idx) := fun k => funext fun a => by
    match a with
    | ⟨0, _⟩ => rfl
    | ⟨1, _⟩ => rfl
  have e4 : ∀ k : Fin 1024, idx_main_v0 (ridx_main_v1 (idx_main_v3 (idx_main_v4 (ix3 t b h))) k) = (ix2 h k : S1024x1024.Idx) := fun k => funext fun a => by
    match a with
    | ⟨0, _⟩ => rfl
    | ⟨1, _⟩ => rfl
  simp only [val_main_v0_apply, e1, e2, e3, e4]
  rfl

end Cert.ReferenceIdeal.RefValue

end
-- ==== Proof.lean ====
/-
  A recurrent layer whose hidden state is never updated: for X : [512,64,1024], hs : [64,1024], W, Hm : [1024,1024],

      out[t,b,h] = tanh (∑ k, X[t,b,k] · W[h,k] + ∑ k, hs[b,k] · Hm[h,k]),      second result = out[511,·,·].

  The kernel's program computes `hterm = hs · Hmᵀ` once, in a one-point pallas_call, converts W to bf16 on the host, and in
  a second pallas_call over 16 points computes 32 leading slices of `out` per point: the slices of X converted to bf16 and
  flattened to [2048,1024], multiplied with Wᵀ into a zero accumulator, re-laid, `hterm` added to every slice, `tanh`. The
  reference computes both products on the host (`dot_general`), repeats the second along the leading axis, adds, takes
  `tanh`. Over the extended reals a change of float format is the identity and each product, the kernel's matrix unit's
  into zero as the host's, is the plain sum over the contracted axis, in the same order on both sides; so both programs'
  first result is ONE function of the arguments (`Cert.Spec.Result`), index by index, and both take the last leading slice
  of it by the same two host operations. No law that needs finiteness is used: the precondition is never opened.

  The three frames: the kernel's two programs by their frame certificates; the reference's by its run with the results
  dropped. `preserves` has no entry. `algebraic`: the kernel's run with its result buffers named, each read as the
  specification's array (Proof/KernelValue.lean, over Proof/Payload.lean), beside the reference's run read the same way
  (Proof/RefValue.lean).
-/
import proofs.«171107_j53214644797476_1_alg».proof.Defs
import proofs.«171107_j53214644797476_1_alg».proof.Proof.Gen.Kernel
import proofs.«171107_j53214644797476_1_alg».proof.Proof.Gen.Kernel.Frame
import proofs.«171107_j53214644797476_1_alg».proof.Proof.Gen.KernelIdeal
import proofs.«171107_j53214644797476_1_alg».proof.Proof.Gen.KernelIdeal.Frame
import proofs.«171107_j53214644797476_1_alg».proof.Proof.Gen.ReferenceIdeal
import proofs.«171107_j53214644797476_1_alg».proof.Proof.Gen.ReferenceIdeal.Run
import proofs.«171107_j53214644797476_1_alg».proof.Proof.Gen.ReferenceIdeal.Read
import proofs.«171107_j53214644797476_1_alg».proof.Proof.Gen.Pre_finite_inputs
import proofs.«171107_j53214644797476_1_alg».proof.Proof.KernelIdealRun
import proofs.«171107_j53214644797476_1_alg».proof.Proof.KernelValue
import proofs.«171107_j53214644797476_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

/-- Both programs end with the first result at `Cert.Spec.Result` of the (agreeing) arguments and the second at its last
    leading slice. -/
theorem algebraic : Cert.algebraic_KernelIdeal_ReferenceIdeal := by
  intro m ρ m' ρ' _ hagree
  refine ⟨fun c => Cert.KernelIdeal.KValue.RES m c,
    fun c => Cert.KernelIdeal.KValue.lastSlice (Cert.KernelIdeal.KValue.RES m c), ?_, ?_⟩
  · exact (θ_run Cert.KernelIdeal.defs _ _).mono
      (fun _ h c => ⟨(h c).1.trans (Cert.KernelIdeal.KValue.W4_v2 m ρ c),
        (h c).2.1.trans (Cert.KernelIdeal.KValue.W4_v4 m ρ c), (h c).2.2⟩)
      (Cert.KernelIdeal.Named.run_named (F := Ideal) m ρ)
  · refine (θ_run Cert.ReferenceIdeal.defs _ _).mono (fun _ h c => ⟨(h c).1.trans ?_, (h c).2.1.trans ?_, (h c).2.2⟩)
      (Cert.ReferenceIdeal.Value.run (F := Ideal) m' ρ')
    · rw [Cert.ReferenceIdeal.Read.val_main_v6_eq, Cert.ReferenceIdeal.RefValue.result_eq,
        (hagree c).1, (hagree c).2.1, (hagree c).2.2.1, (hagree c).2.2.2]
    · rw [Cert.ReferenceIdeal.Read.val_main_v6_eq, Cert.ReferenceIdeal.RefValue.result_eq,
        (hagree c).1, (hagree c).2.1, (hagree c).2.2.1, (hagree c).2.2.2]
      rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
